-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S800000 : S_.BroadcastsInDim S800000 (![] : Fin 0 → Fin S800000.rank)
  reducesTo_S800000_S_d0 : S800000.ReducesTo [0] S_

variable [Facts]

def fn_part1 {F : FTy → Type} [FloatOps F] (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  main_v18

def fn {F : FTy → Type} [FloatOps F] (main_arg0 : FVec F S50000x128 .f32) (main_arg1 : FVec F S128x128 .f32) (main_arg2 : FVec F S128x128 .f32) (main_arg3 : FVec F S800000 .f32) (main_arg4 : IVec S800000 32) (main_arg5 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S800000 .f32 := Host.absf main_arg3
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_v13 main_v16
-- ==== Kernel.lean ====
abbrev S50000x128 : Shape := ⟨2, ![50000, 128]⟩
abbrev S128x128 : Shape := ⟨2, ![128, 128]⟩
abbrev S800000 : Shape := ⟨1, ![800000]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩

abbrev nBuf : Space → Nat
  | .hbm => 45
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x128, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S128x128, .f32⟩
  | .hbm, ⟨7, _⟩ => ⟨S50000x128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x1, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S50000x128, .f32⟩
  | .hbm, ⟨26, _⟩ => ⟨S50000x128, .f32⟩
  | .hbm, ⟨27, _⟩ => ⟨S128x128, .f32⟩
  | .hbm, ⟨28, _⟩ => ⟨S50000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S800000x1, .f32⟩
  | .hbm, ⟨39, _⟩ => ⟨S800000x128, .f32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S800000 : Shape := ⟨1, ![800000]⟩
abbrev S_ : Shape := ⟨0, ![]⟩
abbrev S800000x1 : Shape := ⟨2, ![800000, 1]⟩
abbrev S800000x128 : Shape := ⟨2, ![800000, 128]⟩

abbrev nBuf : Space → Nat
  | .hbm => 45
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x128, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S128x128, .f32⟩
  | .hbm, ⟨7, _⟩ => ⟨S50000x128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x1, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S50000x128, .f32⟩
  | .hbm, ⟨26, _⟩ => ⟨S50000x128, .f32⟩
  | .hbm, ⟨27, _⟩ => ⟨S128x128, .f32⟩
  | .hbm, ⟨28, _⟩ => ⟨S50000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S800000x1, .f32⟩
  | .hbm, ⟨39, _⟩ => ⟨S800000x128, .f32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  transposes_S128x128_S128x128_1_0 : S128x128.Transposes [1, 0] S128x128
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.RowsTimes.lean ====
/-
  The linear layer of this kernel, as mathematics. For an array X of 50000 rows of 128 entries and a 128 × 128
  matrix W, the product X·W has the entry  (X·W)(r, q) = Σ_{k < 128} X(r, k) · W(k, q)  — a finite sum on the
  extended reals, with no rounding and no order. `rowsTimes` is that function of the two whole arrays, and
  `blockTimes` the same sum for one block of 5000 rows.

  The kernel body computes one block: it narrows both operands to bf16 (the identity on extended reals), casts W
  to its own shape (the identity), and multiplies on the matrix unit into a zero accumulator — so what it stores is
  `blockTimes` of the two blocks it loaded (`pay0_eq`, `pay1_eq`: the second launch only adds one more identity
  cast on its left operand). The contraction index of the matrix product is a one-axis index; it is re-indexed by
  its coordinate `k : Fin 128`, and the four axis lemmas say which coordinate of each operand it lands on.
-/
import proofs.«407591_j3977139716628_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Product

open Cert.KernelIdeal Cert.KernelIdeal.Gen Idealize.ShloMosaic Idealize.ShloMosaic.ValueIdx

/-- The zero offsets of a whole-buffer access, however they are spelt. -/
theorem zero_offsets : (![0, 0] : Fin 2 → Nat) = fun _ => 0 := funext fun a => by fin_cases a <;> rfl

/-! ## The whole product -/

/-- Entry `(r, k)` of the left operand, for the output index `i = (r, q)`. -/
abbrev leftAt (i : S50000x128.Idx) (k : Fin 128) : S50000x128.Idx := fun a => match a with
  | ⟨0, _⟩ => ⟨(i 0).val, (i 0).isLt⟩
  | ⟨1, _⟩ => ⟨k.val, k.isLt⟩
/-- Entry `(k, q)` of the matrix, for the output index `i = (r, q)`. -/
abbrev rightAt (i : S50000x128.Idx) (k : Fin 128) : S128x128.Idx := fun a => match a with
  | ⟨0, _⟩ => ⟨k.val, k.isLt⟩
  | ⟨1, _⟩ => ⟨(i 1).val, (i 1).isLt⟩

/-- `(X·W)(r, q) = Σ_k X(r, k) · W(k, q)`. -/
def rowsTimes (X : FVec Ideal S50000x128 .f32) (W : FVec Ideal S128x128 .f32) : FVec Ideal S50000x128 .f32 :=
  fun i => ∑ k : Fin 128, X (leftAt i k) * W (rightAt i k)

/-! ## One block of 5000 rows -/

abbrev leftAtB (j : S5000x128.Idx) (k : Fin 128) : S5000x128.Idx := fun a => match a with
  | ⟨0, _⟩ => ⟨(j 0).val, (j 0).isLt⟩
  | ⟨1, _⟩ => ⟨k.val, k.isLt⟩
abbrev rightAtB (j : S5000x128.Idx) (k : Fin 128) : S128x128.Idx := fun a => match a with
  | ⟨0, _⟩ => ⟨k.val, k.isLt⟩
  | ⟨1, _⟩ => ⟨(j 1).val, (j 1).isLt⟩

/-- The same sum for a block `x` of 5000 rows. -/
def blockTimes (x : FVec Ideal S5000x128 .f32) (w : FVec Ideal S128x128 .f32) : FVec Ideal S5000x128 .f32 :=
  fun j => ∑ k : Fin 128, x (leftAtB j k) * w (rightAtB j k)

/-! ## Where the contraction index lands in each operand -/

theorem lhs_axis0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_axis0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_axis1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit's product of a block and the matrix into a zero accumulator is the block's sum. -/
theorem matmul_zero_eq (x : FVec Ideal S5000x128 .bf16) (w : FVec Ideal S128x128 .bf16) :
    matmul dot_S5000x128_S128x128_S5000x128_1_0_0_1_n_n none x w (constant S5000x128 .f32 0x00000000#32)
      = fun j => ∑ k : Fin 128, x (leftAtB j k) * w (rightAtB j k) := by
  funext j
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx j ((contrEquiv1 dot_S5000x128_S128x128_S5000x128_1_0_0_1_n_n 128 rfl rfl).symm k) = leftAtB j k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx j ((contrEquiv1 dot_S5000x128_S128x128_S5000x128_1_0_0_1_n_n 128 rfl rfl).symm k) = rightAtB j k := funext fun a => Fin.ext (by
    match a with
    | ⟨0, _⟩ => exact (rhs_axis0 _ _).trans hk
    | ⟨1, _⟩ => exact rhs_axis1 _ _)
  rw [el, er]

/-! ## What each launch's body stores -/

/-- The first launch's body stores the block's product. -/
theorem pay0_eq (x : Vec Ideal S5000x128 .f32) (w : Vec Ideal S128x128 .f32) : k0_pay1 x w = blockTimes x w := by
  unfold k0_pay1
  dsimp only
  rw [matmul_zero_eq, shapeCast_self]
  rfl

/-- The second launch's body stores the block's product too (one more identity cast on the left operand). -/
theorem pay1_eq (x : Vec Ideal S5000x128 .f32) (w : Vec Ideal S128x128 .f32) : k1_pay1 x w = blockTimes x w := by
  unfold k1_pay1
  dsimp only
  rw [matmul_zero_eq, shapeCast_self, shapeCast_self]
  rfl

end Cert.KernelIdeal.Product

end
-- ==== Proof.RegionValue0.lean ====
/-
  What the first launch leaves in its result array. The launch walks 10 grid points; point t loads rows
  5000·t … 5000·t + 4999 of its left operand and the whole 128 × 128 matrix, and writes back the product of that
  block with the matrix as rows 5000·t … 5000·t + 4999 of the result. Entry (r, q) of the whole product depends only on
  row r of the left operand, so the block point t writes IS rows 5000·t … of `rowsTimes` of the two whole arrays
  (`flushed0`); the ten blocks tile the 50000 rows (row r lies in the block of point r / 5000), so the result array
  ends holding `rowsTimes` of the arrays as the launch found them (`value0`). Stated at any contents `V` of the
  buffers at the launch's entry.
-/
import proofs.«407591_j3977139716628_3_alg».proof.Proof.Gen.KernelIdeal.Frame
import proofs.«407591_j3977139716628_3_alg».proof.Proof.RowsTimes

set_option maxRecDepth 16384

noncomputable section

namespace Cert.KernelIdeal.Product

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Where each window's block sits at point `t`: the row blocks at block row `t`, the matrix whole. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `5000·t …` of the array. -/
theorem left0 (c : Dev nD) (t : Fin cfg0.N) (y : S5000x128.Idx) (i : S50000x128.Idx)
    (h0 : (i 0).val = 5000 * t.val + (y 0).val) (h1 : (i 1).val = (y 1).val) :
    (iblk0 V c 0 t : Vec Ideal S5000x128 .f32) y = (V c main_arg0 : S50000x128.Idx → Elt Ideal .f32) i := by
  obtain ⟨e0, e1, -, -, -, -⟩ := blocks0 t
  unfold iblk0
  rw [View.read_apply]
  show V c main_arg0 _ = V c main_arg0 _
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The matrix's block at every point is the whole matrix. -/
theorem right0 (c : Dev nD) (t : Fin cfg0.N) (y : S128x128.Idx) (i : S128x128.Idx)
    (h0 : (i 0).val = (y 0).val) (h1 : (i 1).val = (y 1).val) :
    (iblk0 V c 1 t : Vec Ideal S128x128 .f32) y = (V c main_v0 : S128x128.Idx → Elt Ideal .f32) i := by
  obtain ⟨-, -, e0, e1, -, -⟩ := blocks0 t
  unfold iblk0
  rw [View.read_apply]
  show V c main_v0 _ = V c main_v0 _
  congr 1
  funext a
  apply Fin.ext
  match a with
  | ⟨0, _⟩ => show win0_1.index t 0 * 128 + 1 * (y 0).val = (i 0).val; rw [e0, h0]; omega
  | ⟨1, _⟩ => show win0_1.index t 1 * 128 + 1 * (y 1).val = (i 1).val; rw [e1, h1]; omega

/-- Entry `j` of the block product at point `t` is the entry of the whole product `5000·t` rows further down:
    the sum runs over row `5000·t + j₀` of the left operand and column `j₁` of the matrix on both sides. -/
theorem blockTimes0 (c : Dev nD) (t : Fin cfg0.N) (j : S5000x128.Idx) (i : S50000x128.Idx)
    (h0 : (i 0).val = 5000 * t.val + (j 0).val) (h1 : (i 1).val = (j 1).val) :
    blockTimes (iblk0 V c 0 t) (iblk0 V c 1 t) j = rowsTimes (V c main_arg0) (V c main_v0) i := by
  unfold blockTimes rowsTimes
  refine Finset.sum_congr rfl fun k _ => ?_
  rw [left0 V c t (leftAtB j k) (leftAt i k) h0 rfl, right0 V c t (rightAtB j k) (rightAt i k) rfl h1]

/-- What point `t` writes back is block `t` of the whole product. -/
theorem flushed0 (c : Dev nD) (t : Fin cfg0.N) :
    (dat0 V c).flushed 2 t = ((cfg0.win 2).blk t).view.read (Elt Ideal) (rowsTimes (V c main_arg0) (V c main_v0)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  funext j
  rw [View.read_apply]
  refine (congrFun (pay0_eq (iblk0 V c 0 t) (iblk0 V c 1 t)) j).trans ?_
  obtain ⟨-, -, -, -, e0, e1⟩ := blocks0 t
  refine blockTimes0 V c t j _ ?_ ?_
  · show win0_2.index t 0 * 5000 + 1 * (j 0).val = 5000 * t.val + (j 0).val; rw [e0]; omega
  · show win0_2.index t 1 * 128 + 1 * (j 1).val = (j 1).val; rw [e1]; omega

/-- An index of the result array lies in point `t`'s block iff each coordinate lies in the block's range. -/
theorem mem_block0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v1).slice (win0_2.rect t)).set ↔ _
  rw [View.set_slice_whole, Rect.mem_set_unit]
  exact Iff.rfl

/-- Row `r` lies in the block of point `r / 5000`: the ten blocks tile the result. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, e0, e1⟩ := blocks0 t
  refine ⟨t, flush0_2 t, ?_⟩
  rw [mem_block0]
  intro a
  match a with
  | ⟨0, _⟩ => show win0_2.index t 0 * 5000 ≤ (i 0).val ∧ (i 0).val < win0_2.index t 0 * 5000 + 5000; rw [e0, ht]; omega
  | ⟨1, _⟩ => show win0_2.index t 1 * 128 ≤ (i 1).val ∧ (i 1).val < win0_2.index t 1 * 128 + 128; rw [e1]; omega

/-- The result array after the launch is the whole product of the two arrays as the launch found them. -/
theorem value0 (c : Dev nD) : (dat0 V c).arrAt 2 cfg0.N = rowsTimes (V c main_arg0) (V c main_v0) :=
  (dat0 V c).arrAt_eq_of_cover 2 (rowsTimes (V c main_arg0) (V c main_v0)) (fun t _ => flushed0 V c t) cover0

end Cert.KernelIdeal.Product

end
-- ==== Proof.RegionValue1.lean ====
/-
  What the second launch leaves in its result array. The launch walks 10 grid points; point t loads rows
  5000·t … 5000·t + 4999 of its left operand and the whole 128 × 128 matrix, and writes back the product of that
  block with the matrix as rows 5000·t … 5000·t + 4999 of the result. Entry (r, q) of the whole product depends only on
  row r of the left operand, so the block point t writes IS rows 5000·t … of `rowsTimes` of the two whole arrays
  (`flushed1`); the ten blocks tile the 50000 rows (row r lies in the block of point r / 5000), so the result array
  ends holding `rowsTimes` of the arrays as the launch found them (`value1`). Stated at any contents `V` of the
  buffers at the launch's entry.
-/
import proofs.«407591_j3977139716628_3_alg».proof.Proof.Gen.KernelIdeal.Frame
import proofs.«407591_j3977139716628_3_alg».proof.Proof.RowsTimes

set_option maxRecDepth 16384

noncomputable section

namespace Cert.KernelIdeal.Product

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Where each window's block sits at point `t`: the row blocks at block row `t`, the matrix whole. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` is rows `5000·t …` of the array. -/
theorem left1 (c : Dev nD) (t : Fin cfg1.N) (y : S5000x128.Idx) (i : S50000x128.Idx)
    (h0 : (i 0).val = 5000 * t.val + (y 0).val) (h1 : (i 1).val = (y 1).val) :
    (iblk1 V c 0 t : Vec Ideal S5000x128 .f32) y = (V c main_v15 : S50000x128.Idx → Elt Ideal .f32) i := by
  obtain ⟨e0, e1, -, -, -, -⟩ := blocks1 t
  unfold iblk1
  rw [View.read_apply]
  show V c main_v15 _ = V c main_v15 _
  congr 1
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- The matrix's block at every point is the whole matrix. -/
theorem right1 (c : Dev nD) (t : Fin cfg1.N) (y : S128x128.Idx) (i : S128x128.Idx)
    (h0 : (i 0).val = (y 0).val) (h1 : (i 1).val = (y 1).val) :
    (iblk1 V c 1 t : Vec Ideal S128x128 .f32) y = (V c main_v16 : S128x128.Idx → Elt Ideal .f32) i := by
  obtain ⟨-, -, e0, e1, -, -⟩ := blocks1 t
  unfold iblk1
  rw [View.read_apply]
  show V c main_v16 _ = V c main_v16 _
  congr 1
  funext a
  apply Fin.ext
  match a with
  | ⟨0, _⟩ => show win1_1.index t 0 * 128 + 1 * (y 0).val = (i 0).val; rw [e0, h0]; omega
  | ⟨1, _⟩ => show win1_1.index t 1 * 128 + 1 * (y 1).val = (i 1).val; rw [e1, h1]; omega

/-- Entry `j` of the block product at point `t` is the entry of the whole product `5000·t` rows further down:
    the sum runs over row `5000·t + j₀` of the left operand and column `j₁` of the matrix on both sides. -/
theorem blockTimes1 (c : Dev nD) (t : Fin cfg1.N) (j : S5000x128.Idx) (i : S50000x128.Idx)
    (h0 : (i 0).val = 5000 * t.val + (j 0).val) (h1 : (i 1).val = (j 1).val) :
    blockTimes (iblk1 V c 0 t) (iblk1 V c 1 t) j = rowsTimes (V c main_v15) (V c main_v16) i := by
  unfold blockTimes rowsTimes
  refine Finset.sum_congr rfl fun k _ => ?_
  rw [left1 V c t (leftAtB j k) (leftAt i k) h0 rfl, right1 V c t (rightAtB j k) (rightAt i k) rfl h1]

/-- What point `t` writes back is block `t` of the whole product. -/
theorem flushed1 (c : Dev nD) (t : Fin cfg1.N) :
    (dat1 V c).flushed 2 t = ((cfg1.win 2).blk t).view.read (Elt Ideal) (rowsTimes (V c main_v15) (V c main_v16)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S128x128) zero_offsets]
  funext j
  rw [View.read_apply]
  refine (congrFun (pay1_eq (iblk1 V c 0 t) (iblk1 V c 1 t)) j).trans ?_
  obtain ⟨-, -, -, -, e0, e1⟩ := blocks1 t
  refine blockTimes1 V c t j _ ?_ ?_
  · show win1_2.index t 0 * 5000 + 1 * (j 0).val = 5000 * t.val + (j 0).val; rw [e0]; omega
  · show win1_2.index t 1 * 128 + 1 * (j 1).val = (j 1).val; rw [e1]; omega

/-- An index of the result array lies in point `t`'s block iff each coordinate lies in the block's range. -/
theorem mem_block1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v17).slice (win1_2.rect t)).set ↔ _
  rw [View.set_slice_whole, Rect.mem_set_unit]
  exact Iff.rfl

/-- Row `r` lies in the block of point `r / 5000`: the ten blocks tile the result. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, e0, e1⟩ := blocks1 t
  refine ⟨t, flush1_2 t, ?_⟩
  rw [mem_block1]
  intro a
  match a with
  | ⟨0, _⟩ => show win1_2.index t 0 * 5000 ≤ (i 0).val ∧ (i 0).val < win1_2.index t 0 * 5000 + 5000; rw [e0, ht]; omega
  | ⟨1, _⟩ => show win1_2.index t 1 * 128 ≤ (i 1).val ∧ (i 1).val < win1_2.index t 1 * 128 + 128; rw [e1]; omega

/-- The result array after the launch is the whole product of the two arrays as the launch found them. -/
theorem value1 (c : Dev nD) : (dat1 V c).arrAt 2 cfg1.N = rowsTimes (V c main_v15) (V c main_v16) :=
  (dat1 V c).arrAt_eq_of_cover 2 (rowsTimes (V c main_v15) (V c main_v16)) (fun t _ => flushed1 V c t) cover1

end Cert.KernelIdeal.Product

end
-- ==== Proof.KernelValue.lean ====
/-
  The kernel program's two results as functions of its arguments. Between and after the two launches the program
  runs plain host operations: from the node features `S` it gathers the source row of every edge (a negative
  index wrapped once by the row count), scales it by the edge's weight, and adds it into the destination row of a
  zero array — `spread` —, and after the first layer it takes the positive part — `relu`. With `rowsTimes` for what a
  launch leaves in its result array, the hidden layer is `H = relu (spread (X·W0ᵀ))` and the output
  `Z = spread (H·W1ᵀ)`. The proof walks the contents of the buffers from one segment boundary of the program to the
  next, back to the launch memory: a host stretch rewrites the buffers its operations write and leaves the rest, a
  launch rewrites its result array (to `rowsTimes` of what it found) and leaves the rest. The host chain is never
  opened: it is the same chain in the reference.
-/
import proofs.«407591_j3977139716628_3_alg».proof.Proof.KernelRun
import proofs.«407591_j3977139716628_3_alg».proof.Proof.RegionValue0
import proofs.«407591_j3977139716628_3_alg».proof.Proof.RegionValue1

set_option maxRecDepth 16384

noncomputable section

namespace Cert.KernelIdeal.Named

open Cert.KernelIdeal Cert.KernelIdeal.Gen Cert.KernelIdeal.Product
open Idealize.ShloMosaic Idealize.ShloMosaic.TcCoe Idealize.SL.Sem Idealize.ShloMosaic.StableHlo
open Idealize.ShloMosaic.Pipeline (Dat)

/-! ## The host chain, named -/

/-- Gather each edge's source row of `S`, scale it by the edge's weight, add it into the edge's destination row. -/
def spread (S : FVec Ideal S50000x128 .f32) (weight : FVec Ideal S800000 .f32) (src dst : IVec S800000 32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (mulf (Host.gather gather_S50000x128_S800000x1_S800000x128_1_0_n_n_0_1_1128 S
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      (broadcastInDim S800000x128 ![0, 1] bcast_S800000x1_S800000x128_0_1 (broadcastInDim S800000x1 ![0] bcast_S800000_S800000x1_0 weight)))

/-- The positive part, entry by entry. -/
def relu (S : FVec Ideal S50000x128 .f32) : FVec Ideal S50000x128 .f32 :=
  maximumf S (broadcastInDim S50000x128 ![] bcast_S_S50000x128 (constant (F := Ideal) S_ .f32 0x00000000#32))

/-! ## The casts of a called function's buffers

A module-local function's operations read and write their buffers through a transport along the buffer's type
equation; for these literal buffers the equation is `rfl` and the transport the identity. -/

theorem toBuf_hidden (v : (⟨S50000x128, .f32⟩ : BufTy).Contents (Elt Ideal)) :
    (TRef.of (sig := sig) (T := ⟨S50000x128, .f32⟩) main_v15).toBuf v = v := rfl
theorem ofBuf_spread (v : (⟨S50000x128, .f32⟩ : BufTy).Contents (Elt Ideal)) :
    (TRef.of (sig := sig) (T := ⟨S50000x128, .f32⟩) main_v14).ofBuf v = v := rfl
theorem ofBuf_toBuf_zeros (v : (⟨S50000x128, .f32⟩ : BufTy).Contents (Elt Ideal)) :
    (TRef.of (sig := sig) (T := ⟨S50000x128, .f32⟩) main_call0_v0).ofBuf ((TRef.of (sig := sig) (T := ⟨S50000x128, .f32⟩) main_call0_v0).toBuf v) = v := rfl
theorem ofBuf_toBuf_zero (v : (⟨S_, .f32⟩ : BufTy).Contents (Elt Ideal)) :
    (TRef.of (sig := sig) (T := ⟨S_, .f32⟩) main_call0_cst).ofBuf ((TRef.of (sig := sig) (T := ⟨S_, .f32⟩) main_call0_cst).toBuf v) = v := rfl

variable (m : (ℓ : Loc nD τ sig) → Buf (Elt Ideal) ℓ) (ρ : Dev nD → PrngReg)

/-- The hidden layer: `relu (spread (X · W0ᵀ))`. -/
def hidden (c : Dev nD) : FVec Ideal S50000x128 .f32 :=
  relu (spread (rowsTimes (m ((c : Thread nD τ).loc main_arg0)) (transpose S128x128 [1, 0] (m ((c : Thread nD τ).loc main_arg1)) transposes_S128x128_S128x128_1_0)) (m ((c : Thread nD τ).loc main_arg3)) (m ((c : Thread nD τ).loc main_arg4)) (m ((c : Thread nD τ).loc main_arg5)))

/-- The output: `spread (H · W1ᵀ)`. -/
def output (c : Dev nD) : FVec Ideal S50000x128 .f32 :=
  spread (rowsTimes (hidden m c) (transpose S128x128 [1, 0] (m ((c : Thread nD τ).loc main_arg2)) transposes_S128x128_S128x128_1_0)) (m ((c : Thread nD τ).loc main_arg3)) (m ((c : Thread nD τ).loc main_arg4)) (m ((c : Thread nD τ).loc main_arg5))

/-! ## The first launch's entry and exit -/

theorem entry0_left (c : Dev nD) : V1 m ρ c main_arg0 = (m ((c : Thread nD τ).loc main_arg0)) := by
  show StableHlo.after hostOps0 (W0 m ρ c) (Proc.devRef .tc main_arg0) = _
  after_results_simp <;> rfl
theorem entry0_right (c : Dev nD) : V1 m ρ c main_v0 = (transpose S128x128 [1, 0] (m ((c : Thread nD τ).loc main_arg1)) transposes_S128x128_S128x128_1_0) := by
  show StableHlo.after hostOps0 (W0 m ρ c) (Proc.devRef .tc main_v0) = _
  after_results_simp <;> rfl

/-- The first launch leaves `X · W0ᵀ`. -/
theorem exit0_product (c : Dev nD) : W2 m ρ c (Proc.devRef .tc main_v1) = rowsTimes (m ((c : Thread nD τ).loc main_arg0)) (transpose S128x128 [1, 0] (m ((c : Thread nD τ).loc main_arg1)) transposes_S128x128_S128x128_1_0) := by
  refine (W2_arr m ρ c 2).trans ?_
  rw [value0, entry0_left, entry0_right]

/-- The other arguments pass the first launch untouched. -/
theorem exit0_arg2 (c : Dev nD) : W2 m ρ c (Proc.devRef .tc main_arg2) = (m ((c : Thread nD τ).loc main_arg2)) :=
  (W2_of_ne m ρ c main_arg2 (by decide)).trans (by
    show StableHlo.after hostOps0 (W0 m ρ c) (Proc.devRef .tc main_arg2) = _
    after_results_simp <;> rfl)
theorem exit0_arg3 (c : Dev nD) : W2 m ρ c (Proc.devRef .tc main_arg3) = (m ((c : Thread nD τ).loc main_arg3)) :=
  (W2_of_ne m ρ c main_arg3 (by decide)).trans (by
    show StableHlo.after hostOps0 (W0 m ρ c) (Proc.devRef .tc main_arg3) = _
    after_results_simp <;> rfl)
theorem exit0_arg4 (c : Dev nD) : W2 m ρ c (Proc.devRef .tc main_arg4) = (m ((c : Thread nD τ).loc main_arg4)) :=
  (W2_of_ne m ρ c main_arg4 (by decide)).trans (by
    show StableHlo.after hostOps0 (W0 m ρ c) (Proc.devRef .tc main_arg4) = _
    after_results_simp <;> rfl)
theorem exit0_arg5 (c : Dev nD) : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results_simp <;> rfl)

/-! ## Between the launches -/

/-- The second launch finds the hidden layer as its left operand, -/
theorem entry1_left (c : Dev nD) : V5 m ρ c main_v15 = hidden m c := by
  show StableHlo.after hostOps1_2 (StableHlo.after hostOps1_1 (StableHlo.after hostOps1 (W2 m ρ c))) (Proc.devRef .tc main_v15) = _
  after_results_simp
  rw [exit0_product, exit0_arg3, exit0_arg4, exit0_arg5, toBuf_hidden, ofBuf_spread, ofBuf_toBuf_zeros, ofBuf_toBuf_zero]
  unfold hidden relu spread
  rfl
/-- the transposed second weight matrix as its matrix, -/
theorem entry1_right (c : Dev nD) : V5 m ρ c main_v16 = (transpose S128x128 [1, 0] (m ((c : Thread nD τ).loc main_arg2)) transposes_S128x128_S128x128_1_0) := by
  show StableHlo.after hostOps1_2 (StableHlo.after hostOps1_1 (StableHlo.after hostOps1 (W2 m ρ c))) (Proc.devRef .tc main_v16) = _
  after_results_simp
  rw [exit0_arg2]
/-- and the edge arrays as launched. -/
theorem entry1_arg3 (c : Dev nD) : W5 m ρ c (Proc.devRef .tc main_arg3) = (m ((c : Thread nD τ).loc main_arg3)) := by
  show StableHlo.after hostOps1_2 (StableHlo.after hostOps1_1 (StableHlo.after hostOps1 (W2 m ρ c))) (Proc.devRef .tc main_arg3) = _
  after_results_simp
  rw [exit0_arg3]
theorem entry1_arg4 (c : Dev nD) : W5 m ρ c (Proc.devRef .tc main_arg4) = (m ((c : Thread nD τ).loc main_arg4)) := by
  show StableHlo.after hostOps1_2 (StableHlo.after hostOps1_1 (StableHlo.after hostOps1 (W2 m ρ c))) (Proc.devRef .tc main_arg4) = _
  after_results_simp
  rw [exit0_arg4]
theorem entry1_arg5 (c : Dev nD) : W5 m ρ c (Proc.devRef .tc main_arg5) = (m ((c : Thread nD τ).loc main_arg5)) := by
  show StableHlo.after hostOps1_2 (StableHlo.after hostOps1_1 (StableHlo.after hostOps1 (W2 m ρ c))) (Proc.devRef .tc main_arg5) = _
  after_results_simp
  rw [exit0_arg5]

/-! ## The second launch's exit, and the results -/

/-- The second launch leaves `H · W1ᵀ`. -/
theorem exit1_product (c : Dev nD) : W6 m ρ c (Proc.devRef .tc main_v17) = rowsTimes (hidden m c) (transpose S128x128 [1, 0] (m ((c : Thread nD τ).loc main_arg2)) transposes_S128x128_S128x128_1_0) := by
  refine (W6_arr m ρ c 2).trans ?_
  rw [value1, entry1_left, entry1_right]

/-- The hidden layer's array is an input of the second launch: it ends as the launch found it. -/
theorem exit1_hidden (c : Dev nD) : W6 m ρ c (Proc.devRef .tc main_v15) = hidden m c :=
  (W6_arr m ρ c 0).trans ((((dat1 (V5 m ρ) c).arrAt_in 0 rfl _).trans (A_eq1 (V5 m ρ) c 0)).trans (entry1_left m ρ c))

theorem exit1_arg3 (c : Dev nD) : W6 m ρ c (Proc.devRef .tc main_arg3) = (m ((c : Thread nD τ).loc main_arg3)) :=
  (W6_of_ne m ρ c main_arg3 (by decide)).trans (entry1_arg3 m ρ c)
theorem exit1_arg4 (c : Dev nD) : W6 m ρ c (Proc.devRef .tc main_arg4) = (m ((c : Thread nD τ).loc main_arg4)) :=
  (W6_of_ne m ρ c main_arg4 (by decide)).trans (entry1_arg4 m ρ c)
theorem exit1_arg5 (c : Dev nD) : W6 m ρ c (Proc.devRef .tc main_arg5) = (m ((c : Thread nD τ).loc main_arg5)) :=
  (W6_of_ne m ρ c main_arg5 (by decide)).trans (entry1_arg5 m ρ c)

/-- The first result: the output layer. -/
theorem result_output (c : Dev nD) : W7 m ρ c (Proc.devRef .tc main_v30) = output m c := by
  show StableHlo.after hostOps2 (W6 m ρ c) (Proc.devRef .tc main_v30) = _
  after_results_simp
  rw [exit1_product, exit1_arg3, exit1_arg4, exit1_arg5]
  unfold output spread
  rfl

/-- The second result: the hidden layer. -/
theorem result_hidden (c : Dev nD) : W7 m ρ c (Proc.devRef .tc main_v15) = hidden m c := by
  show StableHlo.after hostOps2 (W6 m ρ c) (Proc.devRef .tc main_v15) = _
  after_results_simp
  rw [exit1_hidden]

/-! ## The run, read -/

/-- Every weakly fair execution of the kernel program terminates, nothing faulting, with the results at `output` and
    `hidden` of the launch memory and the arguments unchanged. -/
theorem run_value : θ_run defs (onTc (τ := τ) (main (F := Ideal))) ⟨m, fun _ => 0, ρ⟩ (fun r => ∀ c : Dev nD,
      r.2.mem ((c.tc : Thread nD τ).loc main_v30) = output m c
      ∧ r.2.mem ((c.tc : Thread nD τ).loc main_v15) = hidden m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_output m ρ c), (h c).2.1.trans (result_hidden m ρ c), (h c).2.2⟩)
    (run (F := Ideal) m ρ)

end Cert.KernelIdeal.Named

end
-- ==== Proof.RefProduct.lean ====
/-
  The reference's linear layer is the same function. jnp's `X @ W.T` prints as a `dot_general` of the whole
  50000 × 128 array with the transposed matrix, contracting the row's 128 entries against the matrix's first axis;
  on the extended reals that is, entry by entry, `Σ_{k < 128} X(r, k) · W(k, q)` — `rowsTimes`, the function each
  launch of the kernel leaves in its result array. The contraction index is re-indexed by its one coordinate.
-/
import proofs.«407591_j3977139716628_3_alg».proof.Proof.Gen.ReferenceIdeal.Read
import proofs.«407591_j3977139716628_3_alg».proof.Proof.RowsTimes

noncomputable section

namespace Cert.ReferenceIdeal.RefValue

open Cert.ReferenceIdeal Cert.ReferenceIdeal.Gen Cert.ReferenceIdeal.Read Idealize.ShloMosaic Idealize.ShloMosaic.ValueIdx

/-- The host's product of the whole arrays is `rowsTimes` of them. -/
theorem dot_eq_rowsTimes (X : FVec Ideal S50000x128 .f32) (W : FVec Ideal S128x128 .f32) :
    Host.dotGeneral dot_S50000x128_S128x128_S50000x128_1_0_0_1_n_n none X W = Cert.KernelIdeal.Product.rowsTimes X W := by
  funext i
  simp only [Host.dotGeneral]
  rw [Ideal.dotGeneral_apply, ← Equiv.sum_comp (contrEquiv1 dot_S50000x128_S128x128_S50000x128_1_0_0_1_n_n 128 rfl rfl).symm]
  unfold Cert.KernelIdeal.Product.rowsTimes
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx i ((contrEquiv1 dot_S50000x128_S128x128_S50000x128_1_0_0_1_n_n 128 rfl rfl).symm k) = Cert.KernelIdeal.Product.leftAt i k := funext fun a => Fin.ext (by
    match a with
    | ⟨0, _⟩ => exact lhs_main_v1_0 _ _
    | ⟨1, _⟩ => exact (lhs_main_v1_1 _ _).trans hk)
  have er : dot_S50000x128_S128x128_S50000x128_1_0_0_1_n_n.rhsIdx i ((contrEquiv1 dot_S50000x128_S128x128_S50000x128_1_0_0_1_n_n 128 rfl rfl).symm k) = Cert.KernelIdeal.Product.rightAt i k := funext fun a => Fin.ext (by
    match a with
    | ⟨0, _⟩ => exact (rhs_main_v1_0 _ _).trans hk
    | ⟨1, _⟩ => exact rhs_main_v1_1 _ _)
  rw [el, er]

end Cert.ReferenceIdeal.RefValue

end
-- ==== Proof.RefTerm.lean ====
/-
  The reference computes the same two functions. Its run ends with the hidden layer at
  `relu (spread (X @ W0ᵀ))` and the output at `spread (H @ W1ᵀ)`, written with the host's `dot_general` where the
  kernel program has a launch; each `dot_general` is `rowsTimes` of its operands, and the rest — the gather, the
  scaling, the scatter-add, the positive part — is the same chain of host operations, letter for letter, in both
  programs. So the reference's two result terms are `hidden` and `output` of the same arguments.
-/
import proofs.«407591_j3977139716628_3_alg».proof.Proof.Gen.ReferenceIdeal.Run
import proofs.«407591_j3977139716628_3_alg».proof.Proof.RefProduct
import proofs.«407591_j3977139716628_3_alg».proof.Proof.KernelValue

noncomputable section

namespace Cert.ReferenceIdeal.RefValue

open Cert.ReferenceIdeal Cert.ReferenceIdeal.Gen Idealize.ShloMosaic

variable (X : FVec Ideal S50000x128 .f32) (W0 W1 : FVec Ideal S128x128 .f32) (weight : FVec Ideal S800000 .f32) (src dst : IVec S800000 32)

/-- The reference's hidden layer is the kernel program's. -/
theorem hidden_eq :
    maximumf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (mulf (Host.gather gather_S50000x128_S800000x1_S800000x128_1_0_n_n_0_1_1128 (Host.dotGeneral dot_S50000x128_S128x128_S50000x128_1_0_0_1_n_n none X (transpose S128x128 [1, 0] W0 transposes_S128x128_S128x128_1_0)) (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))) (broadcastInDim S800000x128 ![0, 1] bcast_S800000x1_S800000x128_0_1 (broadcastInDim S800000x1 ![0] bcast_S800000_S800000x1_0 weight)))) (broadcastInDim S50000x128 ![] bcast_S_S50000x128 (constant S_ .f32 0x00000000#32))
      = Cert.KernelIdeal.Named.relu (Cert.KernelIdeal.Named.spread (Cert.KernelIdeal.Product.rowsTimes X (transpose S128x128 [1, 0] W0 transposes_S128x128_S128x128_1_0)) weight src dst) := by
  rw [dot_eq_rowsTimes]
  unfold Cert.KernelIdeal.Named.relu Cert.KernelIdeal.Named.spread
  rfl

/-- The reference's output is the kernel program's. -/
theorem output_eq :
    Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (mulf (Host.gather gather_S50000x128_S800000x1_S800000x128_1_0_n_n_0_1_1128 (Host.dotGeneral dot_S50000x128_S128x128_S50000x128_1_0_0_1_n_n none (maximumf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (mulf (Host.gather gather_S50000x128_S800000x1_S800000x128_1_0_n_n_0_1_1128 (Host.dotGeneral dot_S50000x128_S128x128_S50000x128_1_0_0_1_n_n none X (transpose S128x128 [1, 0] W0 transposes_S128x128_S128x128_1_0)) (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))) (broadcastInDim S800000x128 ![0, 1] bcast_S800000x1_S800000x128_0_1 (broadcastInDim S800000x1 ![0] bcast_S800000_S800000x1_0 weight)))) (broadcastInDim S50000x128 ![] bcast_S_S50000x128 (constant S_ .f32 0x00000000#32))) (transpose S128x128 [1, 0] W1 transposes_S128x128_S128x128_1_0)) (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))) (broadcastInDim S800000x128 ![0, 1] bcast_S800000x1_S800000x128_0_1 (broadcastInDim S800000x1 ![0] bcast_S800000_S800000x1_0 weight)))
      = Cert.KernelIdeal.Named.spread (Cert.KernelIdeal.Product.rowsTimes (Cert.KernelIdeal.Named.relu (Cert.KernelIdeal.Named.spread (Cert.KernelIdeal.Product.rowsTimes X (transpose S128x128 [1, 0] W0 transposes_S128x128_S128x128_1_0)) weight src dst)) (transpose S128x128 [1, 0] W1 transposes_S128x128_S128x128_1_0)) weight src dst := by
  rw [dot_eq_rowsTimes, dot_eq_rowsTimes]
  unfold Cert.KernelIdeal.Named.relu Cert.KernelIdeal.Named.spread
  rfl

end Cert.ReferenceIdeal.RefValue

end
-- ==== Proof.lean ====
/-
  The certificate of a two-layer graph convolution against its jnp reference, over the extended reals.

  Both programs compute  H = relu (spread (X · W0ᵀ))  and  Z = spread (H · W1ᵀ),  where `spread` gathers every
  edge's source row, scales it by the edge's weight and adds it into the edge's destination row. They differ in one
  place only: the kernel program computes each product  X · Wᵀ  by a launch that walks ten blocks of 5000 rows and
  multiplies each block with the transposed matrix on the matrix unit (after narrowing to bf16, which is the identity
  on extended reals), the reference by one `dot_general` of the whole arrays. Entry (r, q) of either is
  Σ_{k < 128} X(r, k) · Wᵀ(k, q): a launch leaves that function in its result array because each block's rows depend
  only on the same rows of the left operand and the ten blocks tile the rows; the `dot_general` is that sum by
  definition. No algebraic law beyond re-indexing a sum is used, so the precondition (finite inputs) is never opened.

  The three frames: the two kernel programs' are the generated frame; the reference's is its generated run with the
  results dropped. The idealization rewrote nothing, so it preserves trivially. The equivalence: the kernel program's
  run with its two results named (`run_value`), the reference's generated run, and the two result terms equal
  (`hidden_eq`, `output_eq`) once the arguments agree.
-/
import proofs.«407591_j3977139716628_3_alg».proof.Defs
import proofs.«407591_j3977139716628_3_alg».proof.Proof.Gen.Kernel
import proofs.«407591_j3977139716628_3_alg».proof.Proof.Gen.Kernel.Frame
import proofs.«407591_j3977139716628_3_alg».proof.Proof.Gen.KernelIdeal
import proofs.«407591_j3977139716628_3_alg».proof.Proof.Gen.KernelIdeal.Frame
import proofs.«407591_j3977139716628_3_alg».proof.Proof.Gen.ReferenceIdeal
import proofs.«407591_j3977139716628_3_alg».proof.Proof.Gen.ReferenceIdeal.Run
import proofs.«407591_j3977139716628_3_alg».proof.Proof.Gen.Pre_finite_inputs
import proofs.«407591_j3977139716628_3_alg».proof.Proof.KernelValue
import proofs.«407591_j3977139716628_3_alg».proof.Proof.RefTerm

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with `output` and `hidden` of those arguments. -/
theorem algebraic : Cert.algebraic_KernelIdeal_ReferenceIdeal := by
  intro m ρ m' ρ' _ hagree
  refine ⟨fun c => Cert.KernelIdeal.Named.output m c, fun c => Cert.KernelIdeal.Named.hidden m c, Cert.KernelIdeal.Named.run_value m ρ, ?_⟩
  refine (θ_run Cert.ReferenceIdeal.defs _ _).mono (fun _ h c => ?_) (Cert.ReferenceIdeal.Value.run (F := Ideal) m' ρ')
  obtain ⟨a0, a1, a2, a3, a4, a5⟩ := hagree c
  refine ⟨(h c).1.trans ?_, (h c).2.1.trans ?_, (h c).2.2⟩
  · rw [a0, a1, a2, a3, a4, a5]
    exact Cert.ReferenceIdeal.RefValue.output_eq _ _ _ _ _ _
  · rw [a0, a1, a3, a4, a5]
    exact Cert.ReferenceIdeal.RefValue.hidden_eq _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
